-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x160x160x160 : Shape := ⟨5, ![8, 1, 160, 160, 160]⟩
abbrev S_ : Shape := ⟨0, ![]⟩

class Facts : Prop where
  bcast_S_S8x1x160x160x160 : S_.BroadcastsInDim S8x1x160x160x160 (![] : Fin 0 → Fin S8x1x160x160x160.rank)
  reducesTo_S8x1x160x160x160_S_d0_1_2_3_4 : S8x1x160x160x160.ReducesTo [0, 1, 2, 3, 4] S_
  h_S_ : 0 < S_.numel

variable [Facts]

def fn {F : FTy → Type} [FloatOps F] (main_arg0 : FVec F S8x1x160x160x160 .f32) (main_arg1 : FVec F S8x1x160x160x160 .f32) : IVec S_ 1 :=
  let main_v0 : FVec F S8x1x160x160x160 .f32 := Host.absf main_arg0
  let main_cst : FVec F S_ .f32 := constant S_ .f32 0x7F800000#32
  let main_v1 : FVec F S8x1x160x160x160 .f32 := broadcastInDim S8x1x160x160x160 ![] bcast_S_S8x1x160x160x160 main_cst
  let main_v2 : IVec S8x1x160x160x160 1 := cmpf .olt main_v0 main_v1
  let main_c : IVec S_ 1 := constantI S_ 1 1#1
  let main_v3 : IVec S_ 1 := (fun x v => Host.reduce IntOp.andi x v reducesTo_S8x1x160x160x160_S_d0_1_2_3_4 h_S_) main_v2 main_c
  let main_v4 : FVec F S8x1x160x160x160 .f32 := Host.absf main_arg1
  let main_cst_0 : FVec F S_ .f32 := constant S_ .f32 0x7F800000#32
  let main_v5 : FVec F S8x1x160x160x160 .f32 := broadcastInDim S8x1x160x160x160 ![] bcast_S_S8x1x160x160x160 main_cst_0
  let main_v6 : IVec S8x1x160x160x160 1 := cmpf .olt main_v4 main_v5
  let main_c_1 : IVec S_ 1 := constantI S_ 1 1#1
  let main_v7 : IVec S_ 1 := (fun x v => Host.reduce IntOp.andi x v reducesTo_S8x1x160x160x160_S_d0_1_2_3_4 h_S_) main_v6 main_c_1
  let main_v8 : IVec S_ 1 := andi main_v3 main_v7
  main_v8
-- ==== Kernel.lean ====
abbrev S8x1x160x160x160 : Shape := ⟨5, ![8, 1, 160, 160, 160]⟩
abbrev S8x4096000 : Shape := ⟨2, ![8, 4096000]⟩
abbrev S8x3 : Shape := ⟨2, ![8, 3]⟩
abbrev S8x128000 : Shape := ⟨2, ![8, 128000]⟩
abbrev S8 : Shape := ⟨1, ![8]⟩
abbrev S8x1 : Shape := ⟨2, ![8, 1]⟩
abbrev S_ : Shape := ⟨0, ![]⟩

abbrev nBuf : Space → Nat
  | .hbm => 31
  | .vmem => 5
  | .smem => 0
  | _ => 0

abbrev bufTy : (tb : Table) → Fin (tcTables nBuf tb) → BufTy
  | .hbm, ⟨0, _⟩ => ⟨S8x1x160x160x160, .f32⟩
  | .hbm, ⟨1, _⟩ => ⟨S8x1x160x160x160, .f32⟩
  | .hbm, ⟨2, _⟩ => ⟨S8x4096000, .f32⟩
  | .hbm, ⟨3, _⟩ => ⟨S8x4096000, .f32⟩
  | .hbm, ⟨4, _⟩ => ⟨S8x3, .f32⟩
  | .hbm, ⟨5, _⟩ => ⟨S8x1, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8x1, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8x1, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .i1⟩
  | .hbm, ⟨23, _⟩ => ⟨S8, .f32⟩
  | .hbm, ⟨24, _⟩ => ⟨S8, .i1⟩
  | .hbm, ⟨25, _⟩ => ⟨S8, .i1⟩
  | .hbm, ⟨26, _⟩ => ⟨S8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S8x128000, .f32⟩
  | .local _ .vmem, ⟨1, _⟩ => ⟨S8x128000, .f32⟩
  | .local _ .vmem, ⟨2, _⟩ => ⟨S8x128000, .f32⟩
  | .local _ .vmem, ⟨3, _⟩ => ⟨S8x128000, .f32⟩
  | .local _ .vmem, ⟨4, _⟩ => ⟨S8x3, .f32⟩
  | _, _ => ⟨S8x1x160x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S8x1x160x160x160_S8x4096000 : S8x1x160x160x160.ShapeCasts S8x4096000
  inb_S8x3_S8x3_0_0 : ∀ a, (![0, 0] : Fin 2 → Nat) a + S8x3.size a ≤ S8x3.size a
  h_S8x3 : 0 < S8x3.numel
  inb_S8x128000_S8x128000_0_0 : ∀ a, (![0, 0] : Fin 2 → Nat) a + S8x128000.size a ≤ S8x128000.size a
  h_S8x128000 : 0 < S8x128000.numel
  shapeCasts_S8x128000_S8x128000 : S8x128000.ShapeCasts S8x128000
  reduces_S8x128000_S8 : S8x128000.Reduces [1] S8
  shapeCasts_S8_S8x1 : S8.ShapeCasts S8x1
  concatenates_S8x1_S8x1_S8x1_S8x3_d1 : Shape.Concatenates [S8x1, S8x1, S8x1] S8x3 1
  shapeCasts_S8x3_S8x3 : S8x3.ShapeCasts S8x3
  slices_S8x3_S8x1_0_0 : S8x3.Slices ![0, 0] S8x1
  shapeCasts_S8x1_S8 : S8x1.ShapeCasts S8
  bcast_S_S8 : S_.BroadcastsInDim S8 (![] : Fin 0 → Fin S8.rank)
  slices_S8x3_S8x1_0_1 : S8x3.Slices ![0, 1] S8x1
  slices_S8x3_S8x1_0_2 : S8x3.Slices ![0, 2] S8x1
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128000.size a ≤ S8x4096000.size a
  hwx0_0 : ∀ i : grid0.Coords, EltTy.bits .f32 = 32 ∨ (Rect.block (s := S8x4096000) S8x128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128000.size a ≤ S8x4096000.size a
  hwx0_1 : ∀ i : grid0.Coords, EltTy.bits .f32 = 32 ∨ (Rect.block (s := S8x4096000) S8x128000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S8x3.size a
  hwx0_2 : ∀ i : grid0.Coords, EltTy.bits .f32 = 32 ∨ (Rect.block (s := S8x3) S8x3.size (cc0_transform_2 i) (hinb0_2 i)).WholeWords (EltTy.packing .f32)

variable [Facts₀]

abbrev win0_0 : Pipeline.Window sig grid0 :=
  Pipeline.Window.ofSpec (Memref.whole main_v0) S8x128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x3.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1x160x160x160 : Shape := ⟨5, ![8, 1, 160, 160, 160]⟩
abbrev S8x4096000 : Shape := ⟨2, ![8, 4096000]⟩
abbrev S_ : Shape := ⟨0, ![]⟩
abbrev S8 : Shape := ⟨1, ![8]⟩

abbrev nBuf : Space → Nat
  | .hbm => 47
  | .vmem => 0
  | .smem => 0
  | _ => 0

abbrev bufTy : (tb : Table) → Fin (tcTables nBuf tb) → BufTy
  | .hbm, ⟨0, _⟩ => ⟨S8x1x160x160x160, .f32⟩
  | .hbm, ⟨1, _⟩ => ⟨S8x1x160x160x160, .f32⟩
  | .hbm, ⟨2, _⟩ => ⟨S8x4096000, .f32⟩
  | .hbm, ⟨3, _⟩ => ⟨S8x4096000, .f32⟩
  | .hbm, ⟨4, _⟩ => ⟨S8x4096000, .f32⟩
  | .hbm, ⟨5, _⟩ => ⟨S8x4096000, .f32⟩
  | .hbm, ⟨6, _⟩ => ⟨S8x4096000, .f32⟩
  | .hbm, ⟨7, _⟩ => ⟨S_, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8x4096000, .f32⟩
  | .hbm, ⟨19, _⟩ => ⟨S8x4096000, .i1⟩
  | .hbm, ⟨20, _⟩ => ⟨S_, .f32⟩
  | .hbm, ⟨21, _⟩ => ⟨S8x4096000, .f32⟩
  | .hbm, ⟨22, _⟩ => ⟨S8x4096000, .f32⟩
  | .hbm, ⟨23, _⟩ => ⟨S8x4096000, .f32⟩
  | .hbm, ⟨24, _⟩ => ⟨S_, .f32⟩
  | .hbm, ⟨25, _⟩ => ⟨S8x4096000, .f32⟩
  | .hbm, ⟨26, _⟩ => ⟨S8x4096000, .f32⟩
  | .hbm, ⟨27, _⟩ => ⟨S_, .f32⟩
  | .hbm, ⟨28, _⟩ => ⟨S8x4096000, .f32⟩
  | .hbm, ⟨29, _⟩ => ⟨S8x4096000, .f32⟩
  | .hbm, ⟨30, _⟩ => ⟨S8x4096000, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .i1⟩
  | .hbm, ⟨39, _⟩ => ⟨S8, .f32⟩
  | .hbm, ⟨40, _⟩ => ⟨S8, .i1⟩
  | .hbm, ⟨41, _⟩ => ⟨S8, .i1⟩
  | .hbm, ⟨42, _⟩ => ⟨S8, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8x1x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  shapeCasts_S8x1x160x160x160_S8x4096000 : S8x1x160x160x160.ShapeCasts S8x4096000
  reducesTo_S8x4096000_S8_d1 : S8x4096000.ReducesTo [1] S8
  h_S_ : 0 < S_.numel
  bcast_S_S8 : S_.BroadcastsInDim S8 (![] : Fin 0 → Fin S8.rank)
  bcast_S_S8x4096000 : S_.BroadcastsInDim S8x4096000 (![] : Fin 0 → Fin S8x4096000.rank)
  reducesTo_S8_S_d0 : S8.ReducesTo [0] S_

variable [Facts₀]

class Facts : Prop extends Facts₀ where

variable [Facts]
-- ==== Proof.KPieces.lean ====
/-
  What one grid point leaves in the accumulator block, as a value.

  The kernel body keeps an [8, 3] block resident across the 32 grid points.  At the first point it stores a zero
  block, reads it back and adds the point's three row sums to it; at every later point it reads what the point
  before left and adds the point's three row sums to that.  Both cases end in ONE store covering the whole block,
  whose payload is the body's arithmetic `k0_pay2` of the two input blocks and of the block read back: at the first
  point that is the zero block `k0_pay1`, later the running contents.
-/
import proofs.«179784_j38577396253398_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later point (the `scf.if` not taken): the block holding `xo` ends holding the payload of the two input
    blocks and `xo`. -/
theorem out_later (c : Dev nD) (i : grid0.Coords) (a1 : Memref sig .tc .vmem S8x128000 .f32) (h1 : a1.IsWhole)
    (a2 : Memref sig .tc .vmem S8x128000 .f32) (h2 : a2.IsWhole) (a3 : Memref sig .tc .vmem S8x3 .f32) (h3 : a3.IsWhole)
    (hc : ¬cond0_0 i) (x0 x1 : Vec F S8x128000 .f32) (xo : Vec F S8x3 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread,
    View.ld_unit_zero (S := S8x128000) hz, View.ld_unit_zero (S := S8x3) hz]

/-- The first point (the `scf.if` taken): the zero block is stored, read back, and the payload of the two input
    blocks and the zero block is stored over it. -/
theorem out_first (c : Dev nD) (i : grid0.Coords) (a1 : Memref sig .tc .vmem S8x128000 .f32) (h1 : a1.IsWhole)
    (a2 : Memref sig .tc .vmem S8x128000 .f32) (h2 : a2.IsWhole) (a3 : Memref sig .tc .vmem S8x3 .f32) (h3 : a3.IsWhole)
    (hc : cond0_0 i) (x0 x1 : Vec F S8x128000 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S8x3) hz, View.readCov_unit_zero (S := S8x3) _ hz]
  simp only [View.readAt_eq_ld, h1.read_unread, h2.read_unread,
    View.ld_unit_zero (S := S8x128000) hz, View.ld_unit_zero (S := S8x3) hz, View.readCov_unit_zero (S := S8x3) _ hz]

end Cert.KernelIdeal.Pieces

end
-- ==== Proof.Errors.lean ====
/-
  The three per-element error terms of the loss, on the extended reals.

  For a prediction `x` and a target `y` with error `e = x - y`:
    * the squared error `e * e`;
    * the absolute error `|e| = max e (-e)`;
    * the Huber element with threshold 5: `0.5 * (e * e)` where `|e| ≤ 5`, else `5 * (|e| - 2.5)`.
  The float literals are kept as their words (5.0 = 0x40A00000, 0.5 = 0x3F000000, 2.5 = 0x40200000): both programs
  carry the same words, so they are never evaluated.
-/
import Idealize.ShloMosaic.PureOps.Ideal.Laws
import Idealize.ShloMosaic.Lib.ValueIdx

noncomputable section

namespace Cert.Loss

open Idealize.ShloMosaic

/-- Squared error. -/
def errSq (x y : Ideal .f32) : Ideal .f32 := (x - y) * (x - y)

/-- Absolute error. -/
def errAbs (x y : Ideal .f32) : Ideal .f32 := max (x - y) (-(x - y))

/-- Huber element, threshold 5. -/
def errHuber (x y : Ideal .f32) : Ideal .f32 :=
  Scalar.select (Ideal.cmp .ole (errAbs x y) (Ideal.ofBits .f32 0x40A00000#32))
    (Ideal.ofBits .f32 0x3F000000#32 * errSq x y)
    (Ideal.ofBits .f32 0x40A00000#32 * (errAbs x y - Ideal.ofBits .f32 0x40200000#32))

/-- The term summed into column `j` of the [8, 3] accumulator: squared, absolute, Huber. -/
def term : Fin 3 → Ideal .f32 → Ideal .f32 → Ideal .f32
  | 0 => errSq
  | 1 => errAbs
  | 2 => errHuber

end Cert.Loss

end
-- ==== Proof.KPayload.lean ====
/-
  The body's arithmetic read at an index of the [8, 3] accumulator block.

  For input blocks `x0`, `x1` of shape [8, 128000] and the block `acc` read back, entry `(b, j)` of the payload is
  `acc (b, j)` plus the sum over the block's 128 000 columns `k` of the `j`-th error term of `x0 (b, k)` and
  `x1 (b, k)`: the three row sums are taken along axis 1, each is given a trailing unit axis, and the three
  [8, 1] columns are laid side by side.
-/
import proofs.«179784_j38577396253398_1_alg».proof.Proof.Gen.KernelIdeal.Skeleton
import proofs.«179784_j38577396253398_1_alg».proof.Proof.Errors
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen Cert.Loss

variable {α : Type}

/-! ## Layout: three [8, 1] columns side by side, and a vector given a trailing unit axis -/

theorem concat_col0 (u0 u1 u2 : S8x1.Idx → α) (h : Shape.Concatenates [S8x1, S8x1, S8x1] S8x3 1) (b : Fin 8) :
    concatenate S8x3 1 [⟨S8x1, u0⟩, ⟨S8x1, u1⟩, ⟨S8x1, u2⟩] h (ix2 b (0 : Fin 3)) = u0 (ix2 b (0 : Fin 1)) :=
  concatenate_apply_piece (1 : Fin S8x3.rank) [⟨S8x1, u0⟩, ⟨S8x1, u1⟩, ⟨S8x1, u2⟩] h (ix2 b (0 : Fin 3)) 0 (by show 0 < 3; omega) S8x1 u0 rfl rfl 0 rfl
    (ix2 b (0 : Fin 1)) (fun a ha => by match a with | ⟨0, _⟩ => rfl | ⟨1, _⟩ => exact absurd rfl ha) rfl

theorem concat_col1 (u0 u1 u2 : S8x1.Idx → α) (h : Shape.Concatenates [S8x1, S8x1, S8x1] S8x3 1) (b : Fin 8) :
    concatenate S8x3 1 [⟨S8x1, u0⟩, ⟨S8x1, u1⟩, ⟨S8x1, u2⟩] h (ix2 b (1 : Fin 3)) = u1 (ix2 b (0 : Fin 1)) :=
  concatenate_apply_piece (1 : Fin S8x3.rank) [⟨S8x1, u0⟩, ⟨S8x1, u1⟩, ⟨S8x1, u2⟩] h (ix2 b (1 : Fin 3)) 1 (by show 1 < 3; omega) S8x1 u1 rfl rfl 1 rfl
    (ix2 b (0 : Fin 1)) (fun a ha => by match a with | ⟨0, _⟩ => rfl | ⟨1, _⟩ => exact absurd rfl ha) rfl

theorem concat_col2 (u0 u1 u2 : S8x1.Idx → α) (h : Shape.Concatenates [S8x1, S8x1, S8x1] S8x3 1) (b : Fin 8) :
    concatenate S8x3 1 [⟨S8x1, u0⟩, ⟨S8x1, u1⟩, ⟨S8x1, u2⟩] h (ix2 b (2 : Fin 3)) = u2 (ix2 b (0 : Fin 1)) :=
  concatenate_apply_piece (1 : Fin S8x3.rank) [⟨S8x1, u0⟩, ⟨S8x1, u1⟩, ⟨S8x1, u2⟩] h (ix2 b (2 : Fin 3)) 2 (by show 2 < 3; omega) S8x1 u2 rfl rfl 2 rfl
    (ix2 b (0 : Fin 1)) (fun a ha => by match a with | ⟨0, _⟩ => rfl | ⟨1, _⟩ => exact absurd rfl ha) rfl

/-- An [8] vector cast to [8, 1] reads, at `(b, 0)`, the vector at `b`. -/
theorem column_apply (v : S8.Idx → α) (h : S8.ShapeCasts S8x1) (b : Fin 8) :
    shapeCast S8x1 v h (ix2 b (0 : Fin 1)) = v (ix1 b) :=
  shapeCast_apply v h _ _ (by
    rw [Shape.rowMajor_val_two, Shape.rowMajor_val_one]
    show b.val = b.val * 1 + 0
    omega)

/-- A sum along axis 1 of an [8, 128000] block, read at row `b`. -/
theorem rowSum_apply (src : FVec Ideal S8x128000 .f32) (h : S8x128000.Reduces [1] S8)
    (hacc : (0x00000000#32 : BitVec 32) = 0x00000000#32) (b : Fin 8) :
    multiReduction (F := Ideal) .add [1] S8 src 0x00000000#32 h (.inl rfl) hacc (ix1 b) = ∑ k : Fin 128000, src (ix2 b k) := by
  refine (Ideal.multiReduction_add_single src 0x00000000#32 h (.inl rfl) hacc (ix1 b)).trans ?_
  refine Finset.sum_congr rfl fun k _ => congrArg src (funext fun a => Fin.ext ?_)
  match a with
  | ⟨0, _⟩ => rfl
  | ⟨1, _⟩ => rfl

/-! ## The payload at an index -/

theorem pay_sq (x0 x1 : Vec Ideal S8x128000 .f32) (acc : Vec Ideal S8x3 .f32) (b : Fin 8) :
    k0_pay2 (F := Ideal) x0 x1 acc (ix2 b (0 : Fin 3))
      = acc (ix2 b (0 : Fin 3)) + ∑ k : Fin 128000, term 0 (x0 (ix2 b k)) (x1 (ix2 b k)) := by
  unfold k0_pay2
  dsimp only
  rw [addf_apply, shapeCast_self, concat_col0, column_apply, rowSum_apply]
  simp only [shapeCast_self]
  rfl

theorem pay_abs (x0 x1 : Vec Ideal S8x128000 .f32) (acc : Vec Ideal S8x3 .f32) (b : Fin 8) :
    k0_pay2 (F := Ideal) x0 x1 acc (ix2 b (1 : Fin 3))
      = acc (ix2 b (1 : Fin 3)) + ∑ k : Fin 128000, term 1 (x0 (ix2 b k)) (x1 (ix2 b k)) := by
  unfold k0_pay2
  dsimp only
  rw [addf_apply, shapeCast_self, concat_col1, column_apply, rowSum_apply]
  simp only [shapeCast_self]
  rfl

theorem pay_huber (x0 x1 : Vec Ideal S8x128000 .f32) (acc : Vec Ideal S8x3 .f32) (b : Fin 8) :
    k0_pay2 (F := Ideal) x0 x1 acc (ix2 b (2 : Fin 3))
      = acc (ix2 b (2 : Fin 3)) + ∑ k : Fin 128000, term 2 (x0 (ix2 b k)) (x1 (ix2 b k)) := by
  unfold k0_pay2
  dsimp only
  rw [addf_apply, shapeCast_self, concat_col2, column_apply, rowSum_apply]
  simp only [shapeCast_self]
  rfl

/-- All three columns at once. -/
theorem pay_apply (x0 x1 : Vec Ideal S8x128000 .f32) (acc : Vec Ideal S8x3 .f32) (b : Fin 8) (j : Fin 3) :
    k0_pay2 (F := Ideal) x0 x1 acc (ix2 b j)
      = acc (ix2 b j) + ∑ k : Fin 128000, term j (x0 (ix2 b k)) (x1 (ix2 b k)) := by
  match j with
  | 0 => exact pay_sq x0 x1 acc b
  | 1 => exact pay_abs x0 x1 acc b
  | 2 => exact pay_huber x0 x1 acc b

/-- The zero block the first point stores is zero everywhere. -/
theorem zero_apply (i : S8x3.Idx) : k0_pay1 (F := Ideal) i = 0 := by
  unfold k0_pay1
  exact Ideal.ofBits_zero_f32

end Cert.KernelIdeal.Payload

end
-- ==== Proof.BlockSums.lean ====
/-
  Sums of a column of 4 096 000 entries taken 128 000 at a time.

  A kernel that walks a row in 32 consecutive blocks of 128 000 columns and adds each block's sum to a running
  total ends with the row's whole sum.  The bookkeeping is done over the natural numbers: the column is extended
  by zero past its end (`ext`), so that a partial total after `n + 1` blocks is the sum over
  `range ((n + 1) * 128000)`, a block's own sum is a sum over `range 128000` shifted by the block's first column,
  and one more block extends the range (`Finset.sum_range_add`).  After the 32nd block the range is the whole column.
  Everything is stated in an additive commutative monoid: no subtraction, no cancellation, so it holds of the
  extended reals as it stands.
-/
import Idealize.ShloMosaic.PureOps.Ideal.Laws

namespace Cert.BlockSums

variable {M : Type} [AddCommMonoid M]

/-- The column `v`, continued by zero past its last entry. -/
def ext (v : Fin 4096000 → M) (i : ℕ) : M := if h : i < 4096000 then v ⟨i, h⟩ else 0

theorem ext_of_lt (v : Fin 4096000 → M) (i : ℕ) (h : i < 4096000) : ext v i = v ⟨i, h⟩ := dif_pos h

/-- The running total after `n + 1` blocks. -/
def upTo (v : Fin 4096000 → M) (n : ℕ) : M := ∑ i ∈ Finset.range ((n + 1) * 128000), ext v i

/-- Block `t`'s own sum: its 128 000 columns start at column `t * 128000`. -/
def block (v : Fin 4096000 → M) (t : ℕ) : M := ∑ k ∈ Finset.range 128000, ext v (t * 128000 + k)

/-- A block's sum over its own column index `k : Fin 128000` is `block`. -/
theorem sum_fin_block (v : Fin 4096000 → M) (t : ℕ) (ht : t < 32) :
    ∑ k : Fin 128000, v ⟨t * 128000 + k.val, by have := k.isLt; omega⟩ = block v t := by
  unfold block
  rw [← Fin.sum_univ_eq_sum_range (fun k => ext v (t * 128000 + k)) 128000]
  exact Finset.sum_congr rfl fun k _ => (ext_of_lt v _ _).symm

/-- The first block alone. -/
theorem upTo_zero (v : Fin 4096000 → M) : upTo v 0 = block v 0 := by
  unfold upTo block
  simp only [Nat.zero_add, Nat.one_mul, Nat.zero_mul]

/-- One more block. -/
theorem upTo_succ (v : Fin 4096000 → M) (n : ℕ) : upTo v (n + 1) = upTo v n + block v (n + 1) := by
  unfold upTo block
  rw [show (n + 1 + 1) * 128000 = (n + 1) * 128000 + 128000 by ring, Finset.sum_range_add]

/-- After the last block the total is the column's whole sum. -/
theorem upTo_last (v : Fin 4096000 → M) : upTo v 31 = ∑ i : Fin 4096000, v i := by
  unfold upTo
  rw [show (31 + 1) * 128000 = 4096000 by norm_num, ← Fin.sum_univ_eq_sum_range (fun i => ext v i) 4096000]
  exact Finset.sum_congr rfl fun i _ => ext_of_lt v _ i.isLt

end Cert.BlockSums
-- ==== Proof.Combine.lean ====
/-
  From the three per-sample sums to the loss.

  Given, for each of the 8 samples, the sum of squared errors `s`, of absolute errors `a` and of Huber elements `h`
  over the sample's 4 096 000 entries, the loss divides each by 4 096 000 (the means L2, L1, Huber), keeps L2 where
  `L2 ≤ 1` or `L2 < L1 * L1` and the Huber mean elsewhere, sums the 8 kept values and divides by 8.
  Both programs end with exactly these operations on exactly these words, so the function is stated once and never
  opened: equality of the two results follows from equality of the three sum vectors.
  `lossOf` is the whole specification: the loss of the row sums of the three error terms of two [8, 4096000] arrays.
-/
import proofs.«179784_j38577396253398_1_alg».proof.Proof.Errors

noncomputable section

namespace Cert.Loss

open Idealize.ShloMosaic Idealize.ShloMosaic.ValueIdx

abbrev Samples : Shape := ⟨1, ![8]⟩
abbrev Scalar0 : Shape := ⟨0, ![]⟩
abbrev Flat : Shape := ⟨2, ![8, 4096000]⟩

/-- The branch and the batch mean over the three per-sample sums. -/
def combine (hb : Scalar0.BroadcastsInDim Samples (![] : Fin 0 → Fin Samples.rank)) (hr : Samples.ReducesTo [0] Scalar0)
    (h0 : 0 < Scalar0.numel) (s a h : FVec Ideal Samples .f32) : FVec Ideal Scalar0 .f32 :=
  Host.divf (F := Ideal)
    (Host.reduceAdd (F := Ideal)
      (select
        (ori
          (cmpf .ole (Host.divf (F := Ideal) s (broadcastInDim Samples ![] hb (constant (F := Ideal) Scalar0 .f32 0x4A7A0000#32)))
            (broadcastInDim Samples ![] hb (constant (F := Ideal) Scalar0 .f32 0x3F800000#32)))
          (cmpf .olt (Host.divf (F := Ideal) s (broadcastInDim Samples ![] hb (constant (F := Ideal) Scalar0 .f32 0x4A7A0000#32)))
            (mulf (Host.divf (F := Ideal) a (broadcastInDim Samples ![] hb (constant (F := Ideal) Scalar0 .f32 0x4A7A0000#32)))
              (Host.divf (F := Ideal) a (broadcastInDim Samples ![] hb (constant (F := Ideal) Scalar0 .f32 0x4A7A0000#32))))))
        (Host.divf (F := Ideal) s (broadcastInDim Samples ![] hb (constant (F := Ideal) Scalar0 .f32 0x4A7A0000#32)))
        (Host.divf (F := Ideal) h (broadcastInDim Samples ![] hb (constant (F := Ideal) Scalar0 .f32 0x4A7A0000#32))))
      (constant (F := Ideal) Scalar0 .f32 0x00000000#32) hr h0)
    (constant (F := Ideal) Scalar0 .f32 0x41000000#32)

/-- Sample `b`'s sum of error term `j` over its 4 096 000 entries. -/
def rowTotal (X Y : FVec Ideal Flat .f32) (j : Fin 3) (b : Fin 8) : Ideal .f32 :=
  ∑ k : Fin 4096000, term j (X (ix2 b k)) (Y (ix2 b k))

/-- The loss of predictions `X` and targets `Y`, both flattened to [8, 4096000]. -/
def lossOf (hb : Scalar0.BroadcastsInDim Samples (![] : Fin 0 → Fin Samples.rank)) (hr : Samples.ReducesTo [0] Scalar0)
    (h0 : 0 < Scalar0.numel) (X Y : FVec Ideal Flat .f32) : FVec Ideal Scalar0 .f32 :=
  combine hb hr h0 (fun i => rowTotal X Y 0 (i 0)) (fun i => rowTotal X Y 1 (i 0)) (fun i => rowTotal X Y 2 (i 0))

end Cert.Loss

end
-- ==== Proof.KAccum.lean ====
/-
  The accumulator over the grid: after point `n` it holds the sums over the first `n + 1` blocks.

  The pipeline walks each of the 8 rows of the two flattened inputs in 32 blocks of 128 000 columns; block `t`'s
  entry `(b, k)` is the array's entry `(b, t * 128000 + k)`.  Entry `(b, j)` of the [8, 3] accumulator after point `n`
  is the sum of error term `j` over row `b`'s first `(n + 1) * 128000` columns: by induction on the point, the first
  point adding its block's sums to zero and every later point to what the point before left.  After the last point
  it is the row's whole sum.
-/
import proofs.«179784_j38577396253398_1_alg».proof.Proof.KPieces
import proofs.«179784_j38577396253398_1_alg».proof.Proof.KPayload
import proofs.«179784_j38577396253398_1_alg».proof.Proof.BlockSums
import proofs.«179784_j38577396253398_1_alg».proof.Proof.Combine

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Loss Cert.BlockSums

variable (m : (ℓ : Loc nD τ sig) → Buf (Elt Ideal) ℓ) (ρ : Dev nD → PrngReg)

/-- The flattened predictions and targets as the region finds them. -/
abbrev preds (c : Dev nD) : Vec Ideal S8x4096000 .f32 := V m c main_v0
abbrev targs (c : Dev nD) : Vec Ideal S8x4096000 .f32 := V m c main_v1
/-- Their blocks at point `t`. -/
abbrev predBlk (c : Dev nD) (t : Fin cfg0.N) : Vec Ideal S8x128000 .f32 := iblk m c 0 t
abbrev targBlk (c : Dev nD) (t : Fin cfg0.N) : Vec Ideal S8x128000 .f32 := iblk m c 1 t

theorem lt32 (t : Fin cfg0.N) : t.val < 32 := lt_of_lt_of_eq t.isLt (show cfg0.N = 32 from N_0)

/-- The two input windows' block indices at point `t`: row block 0, column block `t`. -/
theorem blockIndex_preds : ∀ t : Fin cfg0.N, win0_0.index t 0 = 0 ∧ win0_0.index t 1 = t.val :=
  (by decide +kernel : ∀ t : Fin grid0.N, win0_0.index t 0 = 0 ∧ win0_0.index t 1 = t.val)
theorem blockIndex_targs : ∀ t : Fin cfg0.N, win0_1.index t 0 = 0 ∧ win0_1.index t 1 = t.val :=
  (by decide +kernel : ∀ t : Fin grid0.N, win0_1.index t 0 = 0 ∧ win0_1.index t 1 = t.val)

/-- Block `t` of the predictions at `(b, k)` is the array at `(b, t * 128000 + k)`. -/
theorem predBlk_apply (c : Dev nD) (t : Fin cfg0.N) (b : Fin 8) (k : Fin 128000) :
    predBlk m c t (ix2 b k)
      = preds m c (ix2 b ⟨t.val * 128000 + k.val, by have := k.isLt; have := lt32 t; omega⟩) := by
  obtain ⟨h0, h1⟩ := blockIndex_preds t
  show iblk m c 0 t (ix2 b k) = _
  unfold iblk
  rw [View.read_apply]
  show V m c main_v0 _ = V m c main_v0 _
  congr 1
  funext a
  apply Fin.ext
  match a with
  | ⟨0, _⟩ => show win0_0.index t 0 * 8 + 1 * b.val = b.val; rw [h0]; omega
  | ⟨1, _⟩ => show win0_0.index t 1 * 128000 + 1 * k.val = t.val * 128000 + k.val; rw [h1]; omega

/-- Block `t` of the targets likewise. -/
theorem targBlk_apply (c : Dev nD) (t : Fin cfg0.N) (b : Fin 8) (k : Fin 128000) :
    targBlk m c t (ix2 b k)
      = targs m c (ix2 b ⟨t.val * 128000 + k.val, by have := k.isLt; have := lt32 t; omega⟩) := by
  obtain ⟨h0, h1⟩ := blockIndex_targs t
  show iblk m c 1 t (ix2 b k) = _
  unfold iblk
  rw [View.read_apply]
  show V m c main_v1 _ = V m c main_v1 _
  congr 1
  funext a
  apply Fin.ext
  match a with
  | ⟨0, _⟩ => show win0_1.index t 0 * 8 + 1 * b.val = b.val; rw [h0]; omega
  | ⟨1, _⟩ => show win0_1.index t 1 * 128000 + 1 * k.val = t.val * 128000 + k.val; rw [h1]; omega

/-- Row `b`'s column of error term `j`. -/
def col (c : Dev nD) (j : Fin 3) (b : Fin 8) : Fin 4096000 → Ideal .f32 :=
  fun i => term j (preds m c (ix2 b i)) (targs m c (ix2 b i))

/-- The sum of error term `j` over block `t`'s columns of row `b` is that block of the row's column. -/
theorem blockSum (c : Dev nD) (t : Fin cfg0.N) (j : Fin 3) (b : Fin 8) :
    ∑ k : Fin 128000, term j (predBlk m c t (ix2 b k)) (targBlk m c t (ix2 b k)) = block (col m c j b) t.val := by
  rw [← sum_fin_block (col m c j b) t.val (lt32 t)]
  refine Finset.sum_congr rfl fun k _ => ?_
  rw [predBlk_apply, targBlk_apply]
  rfl

/-- THE INVARIANT: after point `n` the accumulator's entry `(b, j)` is the sum over the first `n + 1` blocks. -/
theorem running (c : Dev nD) : ∀ (n : ℕ) (hn : n < cfg0.N) (b : Fin 8) (j : Fin 3),
    outsAt0 m c n hn (ix2 b j) = upTo (col m c j b) n
  | 0, hn, b, j => by
    have e : outsAt0 m c 0 hn
        = k0_pay2 (F := Ideal) (predBlk m c ⟨0, hn⟩) (targBlk m c ⟨0, hn⟩) (k0_pay1 (F := Ideal)) :=
      (outsAt0_A m c ⟨0, hn⟩ rfl).trans
        (Pieces.out_first (F := Ideal) c (grid0.coords ⟨0, hn⟩) (ms0_0 ⟨0, hn⟩) (hs0_0 ⟨0, hn⟩) (ms0_1 ⟨0, hn⟩) (hs0_1 ⟨0, hn⟩)
          (ms0_2 ⟨0, hn⟩) (hs0_2 ⟨0, hn⟩) ((hcond0_0 ⟨0, hn⟩).mpr rfl) (iblk m c 0 ⟨0, hn⟩) (iblk m c 1 ⟨0, hn⟩))
    rw [e, Payload.pay_apply, Payload.zero_apply, zero_add, blockSum m c ⟨0, hn⟩ j b, upTo_zero]
  | n + 1, hn, b, j => by
    have hN : cfg0.N = 32 := N_0
    have hB : ¬(⟨n + 1, hn⟩ : Fin cfg0.N).val % 32 = 0 := by dsimp only; omega
    have e : outsAt0 m c (n + 1) hn
        = k0_pay2 (F := Ideal) (predBlk m c ⟨n + 1, hn⟩) (targBlk m c ⟨n + 1, hn⟩) (outsAt0 m c n (Nat.lt_of_succ_lt hn)) :=
      (outsAt0_B m c ⟨n + 1, hn⟩ hB).trans
        (Pieces.out_later (F := Ideal) c (grid0.coords ⟨n + 1, hn⟩) (ms0_0 ⟨n + 1, hn⟩) (hs0_0 ⟨n + 1, hn⟩) (ms0_1 ⟨n + 1, hn⟩)
          (hs0_1 ⟨n + 1, hn⟩) (ms0_2 ⟨n + 1, hn⟩) (hs0_2 ⟨n + 1, hn⟩) (fun h => hB ((hcond0_0 ⟨n + 1, hn⟩).mp h))
          (iblk m c 0 ⟨n + 1, hn⟩) (iblk m c 1 ⟨n + 1, hn⟩) (outsAt0 m c n (Nat.lt_of_succ_lt hn)))
    rw [e, Payload.pay_apply, running c n (Nat.lt_of_succ_lt hn) b j, blockSum m c ⟨n + 1, hn⟩ j b, upTo_succ]

theorem last_lt : 31 < cfg0.N := by rw [show cfg0.N = 32 from N_0]; omega

/-- What the accumulator holds after the last point, as contents of the kernel's result array. -/
abbrev totals (c : Dev nD) : Buf (Elt Ideal) ((c : Thread nD τ).loc main_v2) := outsAt0 m c 31 last_lt

/-- Its entry `(b, j)` is row `b`'s whole sum of error term `j`. -/
theorem totals_apply (c : Dev nD) (b : Fin 8) (j : Fin 3) :
    totals m c (ix2 b j) = rowTotal (preds m c) (targs m c) j b := by
  show outsAt0 m c 31 last_lt (ix2 b j) = _
  rw [running m c 31 last_lt b j, upTo_last]
  rfl

end Cert.KernelIdeal.Accum

end
-- ==== Proof.KResult.lean ====
/-
  The idealized kernel's result is `lossOf` of its two flattened arguments.

  The [8, 3] result array is written back once, after the last grid point, from the accumulator, whose one block
  is the whole array; so the array ends holding the rows' totals of the three error terms (`final`).  The host
  lines after the call slice its three columns, drop the unit axis, and apply the shared tail (`tail_eq`); the two
  host lines before the call flatten the arguments (`preds_eq`, `targs_eq`).  Put together: the program's result
  is the loss of the flattened arguments (`run`).
-/
import proofs.«179784_j38577396253398_1_alg».proof.Proof.KAccum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Loss Cert.BlockSums Cert.KernelIdeal.Accum

variable (m : (ℓ : Loc nD τ sig) → Buf (Elt Ideal) ℓ) (ρ : Dev nD → PrngReg)

/-! ## The one write-back -/

/-- The last grid point. -/
abbrev tLast : Fin cfg0.N := ⟨31, last_lt⟩

/-- Only the last point writes the result block back. -/
theorem flush_last (t : Fin cfg0.N) (hf : (cfg0.win 2).flush t = true) : t = tLast := by
  apply Fin.ext
  have := (flush0_2 t).mp hf
  have := lt32 t
  show t.val = 31
  omega

/-- The result window's block index there is (0, 0). -/
theorem outIndex_last : win0_2.index tLast 0 = 0 ∧ win0_2.index tLast 1 = 0 := by decide +kernel

/-- What that point writes back is the accumulator's last contents, read through the block — which starts at the
    array's origin and has the array's extents, so the block's entry `y` is the array's entry `y`. -/
theorem flushed_eq (c : Dev nD) (t : Fin cfg0.N) (hf : (cfg0.win 2).flush t = true) :
    (dats m 0 c).flushed 2 t = ((cfg0.win 2).blk t).view.read (Elt Ideal) (totals m c) := by
  obtain rfl := flush_last t hf
  show (cfg0.win 2).cut (grid0.coords tLast) ((dats m 0 c).after 2 tLast) = _
  rw [after0_2]
  funext y
  rw [View.read_apply]
  show outsAt0 m c 31 last_lt _ = outsAt0 m c 31 last_lt _
  congr 1
  funext a
  apply Fin.ext
  match a with
  | ⟨0, _⟩ => show (y 0).val = win0_2.index tLast 0 * 8 + 1 * (y 0).val; rw [outIndex_last.1]; omega
  | ⟨1, _⟩ => show (y 1).val = win0_2.index tLast 1 * 3 + 1 * (y 1).val; rw [outIndex_last.2]; omega

/-- Every index of the [8, 3] result array lies in the block the last point writes back. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨tLast, (flush0_2 tLast).mpr rfl, ?_⟩
  show i ∈ ((View.whole main_v2).slice (win0_2.rect tLast)).set
  rw [View.set_slice_whole, Rect.mem_set_unit]
  intro a
  have b0 : (i 0 : Nat) < 8 := (i 0).isLt
  have b1 : (i 1 : Nat) < 3 := (i 1).isLt
  match a with
  | ⟨0, _⟩ =>
    show win0_2.index tLast 0 * win0_2.size 0 ≤ (i 0 : Nat)
      ∧ (i 0 : Nat) < win0_2.index tLast 0 * win0_2.size 0 + win0_2.xsize (grid0.coords tLast) 0
    rw [show win0_2.index tLast 0 * win0_2.size 0 = 0 from by decide +kernel,
      show win0_2.xsize (grid0.coords tLast) 0 = 8 from by decide +kernel]
    omega
  | ⟨1, _⟩ =>
    show win0_2.index tLast 1 * win0_2.size 1 ≤ (i 1 : Nat)
      ∧ (i 1 : Nat) < win0_2.index tLast 1 * win0_2.size 1 + win0_2.xsize (grid0.coords tLast) 1
    rw [show win0_2.index tLast 1 * win0_2.size 1 = 0 from by decide +kernel,
      show win0_2.xsize (grid0.coords tLast) 1 = 3 from by decide +kernel]
    omega

/-- So the kernel's result array ends holding the accumulator's last contents. -/
theorem final (c : Dev nD) : (dats m 0 c).arrAt 2 cfg0.N = totals m c :=
  (dats m 0 c).arrAt_eq_of_cover 2 (totals m c) (flushed_eq m c) (covered c)

/-! ## The host lines before the call: the arguments flattened -/

theorem preds_eq (c : Dev nD) :
    preds m c = shapeCast S8x4096000 (m ((c : Thread nD τ).loc main_arg0)) shapeCasts_S8x1x160x160x160_S8x4096000 := by
  show StableHlo.after hostOps0 (fun b => m (c, b)) (Proc.devRef .tc main_v0) = _
  after_results
  rfl

theorem targs_eq (c : Dev nD) :
    targs m c = shapeCast S8x4096000 (m ((c : Thread nD τ).loc main_arg1)) shapeCasts_S8x1x160x160x160_S8x4096000 := by
  show StableHlo.after hostOps0 (fun b => m (c, b)) (Proc.devRef .tc main_v1) = _
  after_results
  rfl

/-! ## The host lines after the call -/

/-- Column `j` of an [8, 3] array as the host takes it: a slice, then the unit axis dropped. -/
def column0 (o : FVec Ideal S8x3 .f32) : FVec Ideal S8 .f32 :=
  shapeCast S8 (extractStridedSlice S8x1 ![0, 0] o slices_S8x3_S8x1_0_0) shapeCasts_S8x1_S8
def column1 (o : FVec Ideal S8x3 .f32) : FVec Ideal S8 .f32 :=
  shapeCast S8 (extractStridedSlice S8x1 ![0, 1] o slices_S8x3_S8x1_0_1) shapeCasts_S8x1_S8
def column2 (o : FVec Ideal S8x3 .f32) : FVec Ideal S8 .f32 :=
  shapeCast S8 (extractStridedSlice S8x1 ![0, 2] o slices_S8x3_S8x1_0_2) shapeCasts_S8x1_S8

/-- Sample `i` of column `j` is entry `(i, j)`. -/
theorem column0_apply (o : FVec Ideal S8x3 .f32) (i : S8.Idx) :
    column0 o i = o (ix2 (n0 := 8) (n1 := 3) (i 0) 0) := by
  unfold column0
  refine (shapeCast_apply _ shapeCasts_S8x1_S8 i (ix2 (n0 := 8) (n1 := 1) (i 0) 0) ?_).trans ?_
  · rw [Shape.rowMajor_val_two, Shape.rowMajor_val_one]
    show (i 0).val * 1 + 0 = (i 0).val
    omega
  · exact extractStridedSlice_apply ![0, 0] o slices_S8x3_S8x1_0_0 (ix2 (n0 := 8) (n1 := 1) (i 0) 0)
      (ix2 (n0 := 8) (n1 := 3) (i 0) 0) (fun a => by
      match a with
      | ⟨0, _⟩ => show (i 0).val = 0 + (i 0).val; omega
      | ⟨1, _⟩ => rfl)

theorem column1_apply (o : FVec Ideal S8x3 .f32) (i : S8.Idx) :
    column1 o i = o (ix2 (n0 := 8) (n1 := 3) (i 0) 1) := by
  unfold column1
  refine (shapeCast_apply _ shapeCasts_S8x1_S8 i (ix2 (n0 := 8) (n1 := 1) (i 0) 0) ?_).trans ?_
  · rw [Shape.rowMajor_val_two, Shape.rowMajor_val_one]
    show (i 0).val * 1 + 0 = (i 0).val
    omega
  · exact extractStridedSlice_apply ![0, 1] o slices_S8x3_S8x1_0_1 (ix2 (n0 := 8) (n1 := 1) (i 0) 0)
      (ix2 (n0 := 8) (n1 := 3) (i 0) 1) (fun a => by
      match a with
      | ⟨0, _⟩ => show (i 0).val = 0 + (i 0).val; omega
      | ⟨1, _⟩ => rfl)

theorem column2_apply (o : FVec Ideal S8x3 .f32) (i : S8.Idx) :
    column2 o i = o (ix2 (n0 := 8) (n1 := 3) (i 0) 2) := by
  unfold column2
  refine (shapeCast_apply _ shapeCasts_S8x1_S8 i (ix2 (n0 := 8) (n1 := 1) (i 0) 0) ?_).trans ?_
  · rw [Shape.rowMajor_val_two, Shape.rowMajor_val_one]
    show (i 0).val * 1 + 0 = (i 0).val
    omega
  · exact extractStridedSlice_apply ![0, 2] o slices_S8x3_S8x1_0_2 (ix2 (n0 := 8) (n1 := 1) (i 0) 0)
      (ix2 (n0 := 8) (n1 := 3) (i 0) 2) (fun a => by
      match a with
      | ⟨0, _⟩ => show (i 0).val = 0 + (i 0).val; omega
      | ⟨1, _⟩ => rfl)

set_option maxHeartbeats 2000000 in
set_option maxRecDepth 8192 in
/-- The program's result buffer after the lines that follow the call: the shared tail of the three columns of the
    result array. -/
theorem tail_eq (c : Dev nD) :
    Pipeline.afterTail₀ cfgs (dats m) 0 (V0 m) [hostOps1, hostOps1_1, hostOps1_2] c main_v22
      = combine bcast_S_S8 reducesTo_S8_S_d0 h_S_
          (column0 ((dats m 0 c).arrAt 2 cfg0.N)) (column1 ((dats m 0 c).arrAt 2 cfg0.N)) (column2 ((dats m 0 c).arrAt 2 cfg0.N)) := by
  unfold Pipeline.afterTail₀
  simp only [hostOps1, hostOps1_1, hostOps1_2, List.flatten_cons, List.flatten_nil, List.append_nil, List.cons_append, List.nil_append]
  after_results_simp
  have hW : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  rw [hW]
  rfl

/-- The three columns of the accumulator's last contents are the rows' totals. -/
theorem result_eq (c : Dev nD) :
    Pipeline.afterTail₀ cfgs (dats m) 0 (V0 m) [hostOps1, hostOps1_1, hostOps1_2] c main_v22
      = lossOf bcast_S_S8 reducesTo_S8_S_d0 h_S_
          (shapeCast S8x4096000 (m ((c : Thread nD τ).loc main_arg0)) shapeCasts_S8x1x160x160x160_S8x4096000)
          (shapeCast S8x4096000 (m ((c : Thread nD τ).loc main_arg1)) shapeCasts_S8x1x160x160x160_S8x4096000) := by
  rw [tail_eq, final, ← preds_eq, ← targs_eq]
  unfold lossOf
  have e0 : column0 (totals m c) = fun i => rowTotal (preds m c) (targs m c) 0 (i 0) :=
    funext fun i => (column0_apply _ i).trans (totals_apply m c (i 0) 0)
  have e1 : column1 (totals m c) = fun i => rowTotal (preds m c) (targs m c) 1 (i 0) :=
    funext fun i => (column1_apply _ i).trans (totals_apply m c (i 0) 1)
  have e2 : column2 (totals m c) = fun i => rowTotal (preds m c) (targs m c) 2 (i 0) :=
    funext fun i => (column2_apply _ i).trans (totals_apply m c (i 0) 2)
  rw [e0, e1, e2]

/-! ## The run -/

/-- Every weakly fair execution of the idealized kernel program terminates with its result at the loss of the
    flattened arguments, and the arguments unchanged. -/
theorem run : θ_run defs (onTc (τ := τ) (main (F := Ideal))) ⟨m, fun _ => 0, ρ⟩ fun r => ∀ c : Dev nD,
      r.2.mem ((c.tc : Thread nD τ).loc main_v22)
        = lossOf bcast_S_S8 reducesTo_S8_S_d0 h_S_
            (shapeCast S8x4096000 (m ((c.tc : Thread nD τ).loc main_arg0)) shapeCasts_S8x1x160x160x160_S8x4096000)
            (shapeCast S8x4096000 (m ((c.tc : Thread nD τ).loc main_arg1)) shapeCasts_S8x1x160x160x160_S8x4096000)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v22 (Pipeline.mem_restRefs_of main_v22 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefSide.lean ====
/-
  The reference computes `lossOf` of its two flattened arguments.

  Each of the reference's three `reduce add` over axis 1 is, at sample `b`, zero plus the sum over the 4 096 000
  columns of one error term of the two flattened arguments at `(b, k)`: the squared error as written, the absolute
  error (the host's `abs` is `max e (-e)`), and the Huber element, whose small branch the reference writes
  `(0.5 * e) * e`: the product is associative on the extended reals, so that is `0.5 * (e * e)`.  What follows the
  three sums is the shared tail `combine`, word for word.
-/
import proofs.«179784_j38577396253398_1_alg».proof.Proof.Gen.ReferenceIdeal.Read
import proofs.«179784_j38577396253398_1_alg».proof.Proof.Combine

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Loss

variable (x0 x1 : (⟨S8x1x160x160x160, .f32⟩ : BufTy).Contents (Elt Ideal))

/-- The index the reduce reads at sample `i`, column `k`. -/
theorem idx5_eq (i : S8.Idx) (k : Fin 4096000) : idx_main_v5 i k = ix2 (n0 := 8) (n1 := 4096000) (i 0) k :=
  funext fun a => Fin.ext (by match a with | ⟨0, _⟩ => rfl | ⟨1, _⟩ => rfl)
theorem idx8_eq (i : S8.Idx) (k : Fin 4096000) : idx_main_v8 i k = ix2 (n0 := 8) (n1 := 4096000) (i 0) k :=
  funext fun a => Fin.ext (by match a with | ⟨0, _⟩ => rfl | ⟨1, _⟩ => rfl)
theorem idx21_eq (i : S8.Idx) (k : Fin 4096000) : idx_main_v21 i k = ix2 (n0 := 8) (n1 := 4096000) (i 0) k :=
  funext fun a => Fin.ext (by match a with | ⟨0, _⟩ => rfl | ⟨1, _⟩ => rfl)

/-- The squared error, element by element. -/
theorem sqElt (i : S8x4096000.Idx) :
    val_main_v4 (F := Ideal) x0 x1 i = term 0 (val_main_v0 (F := Ideal) x0 i) (val_main_v1 (F := Ideal) x1 i) := rfl

/-- The absolute error, element by element. -/
theorem absElt (i : S8x4096000.Idx) :
    val_main_v3 (F := Ideal) x0 x1 i = term 1 (val_main_v0 (F := Ideal) x0 i) (val_main_v1 (F := Ideal) x1 i) := rfl

/-- The Huber element: the reference's `(0.5 * e) * e` re-associated. -/
theorem huberElt (i : S8x4096000.Idx) :
    val_main_v20 (F := Ideal) x0 x1 i = term 2 (val_main_v0 (F := Ideal) x0 i) (val_main_v1 (F := Ideal) x1 i) := by
  rw [val_main_v20_apply, val_main_v12_apply, val_main_v15_apply, val_main_v14_apply, val_main_v19_apply, val_main_v17_apply,
    val_main_v11_apply, val_main_v13_apply, val_main_v16_apply, val_main_v18_apply]
  show Scalar.select (Ideal.cmp .ole (errAbs _ _) (Ideal.ofBits .f32 0x40A00000#32))
      ((Ideal.ofBits .f32 0x3F000000#32 * (val_main_v0 (F := Ideal) x0 i - val_main_v1 (F := Ideal) x1 i))
        * (val_main_v0 (F := Ideal) x0 i - val_main_v1 (F := Ideal) x1 i))
      (Ideal.ofBits .f32 0x40A00000#32 * (errAbs _ _ - Ideal.ofBits .f32 0x40200000#32)) = errHuber _ _
  rw [mul_assoc]
  rfl

/-- The reference's three sums are the rows' totals. -/
theorem sumSq_apply (i : S8.Idx) :
    val_main_v5 (F := Ideal) x0 x1 i = rowTotal (val_main_v0 (F := Ideal) x0) (val_main_v1 (F := Ideal) x1) 0 (i 0) := by
  rw [val_main_v5_apply]
  refine (congrArg₂ (· + ·) (Ideal.ofBits_zero_f32 : val_main_cst (F := Ideal) _ = 0)
    (Finset.sum_congr rfl fun k _ => ?_)).trans (zero_add _)
  exact (congrArg (val_main_v4 (F := Ideal) x0 x1) (idx5_eq i k)).trans (sqElt x0 x1 _)

theorem sumAbs_apply (i : S8.Idx) :
    val_main_v8 (F := Ideal) x0 x1 i = rowTotal (val_main_v0 (F := Ideal) x0) (val_main_v1 (F := Ideal) x1) 1 (i 0) := by
  rw [val_main_v8_apply]
  refine (congrArg₂ (· + ·) (Ideal.ofBits_zero_f32 : val_main_cst_1 (F := Ideal) _ = 0)
    (Finset.sum_congr rfl fun k _ => ?_)).trans (zero_add _)
  exact (congrArg (val_main_v3 (F := Ideal) x0 x1) (idx8_eq i k)).trans (absElt x0 x1 _)

theorem sumHuber_apply (i : S8.Idx) :
    val_main_v21 (F := Ideal) x0 x1 i = rowTotal (val_main_v0 (F := Ideal) x0) (val_main_v1 (F := Ideal) x1) 2 (i 0) := by
  rw [val_main_v21_apply]
  refine (congrArg₂ (· + ·) (Ideal.ofBits_zero_f32 : val_main_cst_7 (F := Ideal) _ = 0)
    (Finset.sum_congr rfl fun k _ => ?_)).trans (zero_add _)
  exact (congrArg (val_main_v20 (F := Ideal) x0 x1) (idx21_eq i k)).trans (huberElt x0 x1 _)

/-- The reference's result is the loss of its two flattened arguments. -/
theorem result_eq :
    val_main_v31 (F := Ideal) x0 x1
      = lossOf bcast_S_S8 reducesTo_S8_S_d0 h_S_ (val_main_v0 (F := Ideal) x0) (val_main_v1 (F := Ideal) x1) := by
  have e5 : val_main_v5 (F := Ideal) x0 x1 = fun i => rowTotal (val_main_v0 (F := Ideal) x0) (val_main_v1 (F := Ideal) x1) 0 (i 0) :=
    funext (sumSq_apply x0 x1)
  have e8 : val_main_v8 (F := Ideal) x0 x1 = fun i => rowTotal (val_main_v0 (F := Ideal) x0) (val_main_v1 (F := Ideal) x1) 1 (i 0) :=
    funext (sumAbs_apply x0 x1)
  have e21 : val_main_v21 (F := Ideal) x0 x1 = fun i => rowTotal (val_main_v0 (F := Ideal) x0) (val_main_v1 (F := Ideal) x1) 2 (i 0) :=
    funext (sumHuber_apply x0 x1)
  show combine bcast_S_S8 reducesTo_S8_S_d0 h_S_ (val_main_v5 (F := Ideal) x0 x1) (val_main_v8 (F := Ideal) x0 x1)
    (val_main_v21 (F := Ideal) x0 x1) = _
  unfold lossOf
  rw [e5, e8, e21]

end Cert.ReferenceIdeal.RefValue

end
-- ==== Proof.lean ====
/-
  The adaptive per-sample loss (mean squared error, or the Huber mean where the squared error is large) of two
  float32[8, 1, 160, 160, 160] arrays: a Pallas kernel that streams both arrays once against its jnp reference.

  The kernel flattens each array to [8, 4096000] and walks the rows in 32 blocks of 128 000 columns.  A resident
  [8, 3] block accumulates, per sample, the sum of squared errors, of absolute errors and of Huber elements; it is
  zeroed at the first grid point and written back after the last.  Host lines then divide each sum by 4 096 000,
  keep the squared-error mean where it is at most 1 or below the squared absolute-error mean and the Huber mean
  elsewhere, and average over the 8 samples.  The reference takes the same three sums as whole-row reductions and
  ends in the same lines.

  Over the extended reals the two agree: a row's sum taken block by block and added up is the row's sum
  (Proof/BlockSums.lean: sums in a commutative monoid, re-bracketed; no cancellation is used, so the inputs'
  finiteness is never opened), and the reference's `(0.5 * e) * e` is the kernel's `0.5 * (e * e)` because the product
  is associative there.  Everything after the three sums is one function of them (Proof/Combine.lean), stated once.

    frame_Kernel, frame_KernelIdeal   the generated frames (two control cases: the first point, the others);
    frame_ReferenceIdeal              the generated reference run with its result dropped;
    preserves                         the ideal pass rewrote nothing;
    algebraic                         both results are `Loss.lossOf` of the flattened arguments
                                      (Proof/KResult.lean for the kernel, Proof/RefSide.lean for the reference).
-/
import proofs.«179784_j38577396253398_1_alg».proof.Defs
import proofs.«179784_j38577396253398_1_alg».proof.Proof.Gen.Kernel
import proofs.«179784_j38577396253398_1_alg».proof.Proof.Gen.Kernel.Skeleton
import proofs.«179784_j38577396253398_1_alg».proof.Proof.Gen.Kernel.Launch
import proofs.«179784_j38577396253398_1_alg».proof.Proof.Gen.Kernel.Points
import proofs.«179784_j38577396253398_1_alg».proof.Proof.Gen.Kernel.Frame
import proofs.«179784_j38577396253398_1_alg».proof.Proof.Gen.KernelIdeal
import proofs.«179784_j38577396253398_1_alg».proof.Proof.Gen.KernelIdeal.Skeleton
import proofs.«179784_j38577396253398_1_alg».proof.Proof.Gen.KernelIdeal.Launch
import proofs.«179784_j38577396253398_1_alg».proof.Proof.Gen.KernelIdeal.Points
import proofs.«179784_j38577396253398_1_alg».proof.Proof.Gen.KernelIdeal.Frame
import proofs.«179784_j38577396253398_1_alg».proof.Proof.Gen.ReferenceIdeal
import proofs.«179784_j38577396253398_1_alg».proof.Proof.Gen.ReferenceIdeal.Run
import proofs.«179784_j38577396253398_1_alg».proof.Proof.Gen.ReferenceIdeal.Read
import proofs.«179784_j38577396253398_1_alg».proof.Proof.Gen.Pre_finite_inputs
import proofs.«179784_j38577396253398_1_alg».proof.Proof.KResult
import proofs.«179784_j38577396253398_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the loss of the flattened arguments; the arguments agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
